-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S2000x128 : Shape := ⟨2, ![2000, 128]⟩

abbrev nBuf : Space → Nat
  | .hbm => 63
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S128x128, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S128x128, .f32⟩
  | .hbm, ⟨60, _⟩ => ⟨S128x128, .f32⟩
  | .hbm, ⟨61, _⟩ => ⟨S1x128, .f32⟩
  | .hbm, ⟨62, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S128x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KBody.lean ====
/-
  What one grid point's body stores, read at an index of the `[2000, 128]` block.

  The body multiplies the block of means by the first weight matrix and the block of node rows by the second,
  adds the two products and the bias row, and (first layer only) takes the positive part. At the exact values a
  change of float format is the identity and a matrix product into a zero accumulator is the plain sum over the
  contracted index, so entry `(r, q)` of the stored block is

      Σ_k x0(r, k) · x2(k, q)  +  Σ_k x1(r, k) · x3(k, q)  +  x4(0, q),      (first layer: its maximum with 0).
-/
import proofs.«108733_j26817775796491_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.KBody

open Cert.KernelIdeal Cert.KernelIdeal.Gen Idealize.ShloMosaic Idealize.ShloMosaic.TcCoe Idealize.SL.Sem

/-- Entry `k` of the block row that `j` lies in. -/
abbrev brow (j : S2000x128.Idx) (k : Fin 128) : S2000x128.Idx := fun a => match a with
  | ⟨0, _⟩ => ⟨(j 0).val, (j 0).isLt⟩
  | ⟨1, _⟩ => ⟨k.val, k.isLt⟩
/-- Entry `k` of the weight column that `j` lies in. -/
abbrev bcol (j : S2000x128.Idx) (k : Fin 128) : S128x128.Idx := fun a => match a with
  | ⟨0, _⟩ => ⟨k.val, k.isLt⟩
  | ⟨1, _⟩ => ⟨(j 1).val, (j 1).isLt⟩
/-- The bias entry under `j`'s column. -/
abbrev bfeat (j : S2000x128.Idx) : S1x128.Idx := fun a => match a with
  | ⟨0, _⟩ => ⟨0, Nat.one_pos⟩
  | ⟨1, _⟩ => ⟨(j 1).val, (j 1).isLt⟩

/-! Both products use one dot record: `[2000,128] · [128,128]`, contracting the second axis of the left operand with
    the first of the right. Its operand indices, coordinate by coordinate: -/

/-- The left operand's row is the output's row. -/
theorem lhs_D_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column is the contracted index. -/
theorem lhs_D_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row is the contracted index. -/
theorem rhs_D_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column is the output's column. -/
theorem rhs_D_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A product of two blocks accumulated into the zero block, read at `j`: the sum over the contracted index `k` of
    the left block's entry `(row of j, k)` times the right block's entry `(k, column of j)`. -/
theorem mm_zero_apply {φ₁ φ₂ : FTy} (a : FVec Ideal S2000x128 φ₁) (b : FVec Ideal S128x128 φ₂) (j : S2000x128.Idx) :
    matmul (F := Ideal) dot_S2000x128_S128x128_S2000x128_1_0_0_1_n_n none a b (constant (F := Ideal) S2000x128 .f32 0x00000000#32) j
      = ∑ k : Fin 128, a (brow j k) * b (bcol j k) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = brow j k := funext fun c => Fin.ext (by
    match c with
    | ⟨0, _⟩ => exact lhs_D_0 _ _
    | ⟨1, _⟩ => exact (lhs_D_1 _ _).trans hk)
  have er : dot_S2000x128_S128x128_S2000x128_1_0_0_1_n_n.rhsIdx j ((ValueIdx.contrEquiv1 dot_S2000x128_S128x128_S2000x128_1_0_0_1_n_n 128 rfl rfl).symm k) = bcol j k := funext fun c => Fin.ext (by
    match c with
    | ⟨0, _⟩ => exact (rhs_D_0 _ _).trans hk
    | ⟨1, _⟩ => exact rhs_D_1 _ _)
  rw [el, er]

/-- The bias row laid along every block row, read at `j`: the bias entry under `j`'s column. -/
theorem bias_apply (x4 : FVec Ideal S1x128 .f32) (j : S2000x128.Idx) :
    broadcastTo S2000x128 x4 broadcasts_S1x128_S2000x128 j = x4 (bfeat j) :=
  broadcastTo_apply x4 broadcasts_S1x128_S2000x128 j (bfeat j) (fun c => match c with
    | ⟨0, _⟩ => rfl
    | ⟨1, _⟩ => rfl)

/-- The first layer's stored block at an index. -/
theorem pay0_apply (x0 x1 : Vec Ideal S2000x128 .f32) (x2 x3 : Vec Ideal S128x128 .f32) (x4 : Vec Ideal S1x128 .f32) (j : S2000x128.Idx) :
    k0_pay1 (F := Ideal) x0 x1 x2 x3 x4 j
      = max ((∑ k : Fin 128, x0 (brow j k) * x2 (bcol j k)) + (∑ k : Fin 128, x1 (brow j k) * x3 (bcol j k)) + x4 (bfeat j)) 0 := by
  unfold k0_pay1
  simp only [maximumf, addf, truncf, shapeCast_self, Ideal.maximumf_def, Ideal.addf_def, Ideal.truncf_def]
  rw [mm_zero_apply, mm_zero_apply, bias_apply]
  simp only [truncf, Ideal.truncf_def, ValueIdx.broadcast_apply, Ideal.ofBits_def, Ideal.ofBits_zero_f32]

/-- The second layer's stored block at an index. -/
theorem pay1_apply (x0 x1 : Vec Ideal S2000x128 .f32) (x2 x3 : Vec Ideal S128x128 .f32) (x4 : Vec Ideal S1x128 .f32) (j : S2000x128.Idx) :
    k1_pay1 (F := Ideal) x0 x1 x2 x3 x4 j
      = (∑ k : Fin 128, x0 (brow j k) * x2 (bcol j k)) + (∑ k : Fin 128, x1 (brow j k) * x3 (bcol j k)) + x4 (bfeat j) := by
  unfold k1_pay1
  simp only [addf, truncf, shapeCast_self, Ideal.addf_def, Ideal.truncf_def]
  rw [mm_zero_apply, mm_zero_apply, bias_apply]
  simp only [truncf, Ideal.truncf_def]

end Cert.KernelIdeal.KBody

end
-- ==== Proof.Spec.lean ====
/-
  The function both programs compute, stated once over plain index functions.

  A node array is `[100000, 128]`: row `n` is node `n`'s feature vector. One layer takes, for every node, the
  MEAN of the rows its in-neighbours send it and the node's own row, and combines them linearly:

      combine M X A B b (n, q) = Σ_k M(n, k) · A(k, q)  +  Σ_k X(n, k) · B(k, q)  +  b(q).

  The mean is the neighbours' SUM divided by `max(count, 1)`. Which rows are summed into which node is decided by
  the edge list alone, so the sum enters here as an arbitrary function `agg` of the node array, and the count as an
  arbitrary vector `cnt`: nothing below depends on what they are.

  The one piece of arithmetic is `mul_recip`: on the extended reals a product with the reciprocal `1 / c` is the
  quotient by `c` as soon as `c ≠ 0` — at the infinities too, because the quotient is DEFINED as the product with
  the inverse — and `max(count, 1)` is never `0` since it is at least `1`.
-/
import Idealize.ShloMosaic.PureOps.Ideal
import Idealize.ShloMosaic.PureOps.Ideal.Laws
import Idealize.ShloMosaic.Lib.ValueIdx

noncomputable section

namespace Sage

open Idealize.ShloMosaic

/-- Node arrays, weight matrices, per-node vectors, per-feature vectors. -/
abbrev SN : Shape := ⟨2, ![100000, 128]⟩
abbrev SW : Shape := ⟨2, ![128, 128]⟩
abbrev SC : Shape := ⟨1, ![100000]⟩
abbrev SB : Shape := ⟨1, ![128]⟩

/-- Entry `k` of the row that index `i` lies in. -/
abbrev rowAt (i : SN.Idx) (k : Fin 128) : SN.Idx := fun a => match a with
  | ⟨0, _⟩ => ⟨(i 0).val, (i 0).isLt⟩
  | ⟨1, _⟩ => ⟨k.val, k.isLt⟩
/-- Entry `k` of the weight column that index `i` lies in. -/
abbrev colAt (i : SN.Idx) (k : Fin 128) : SW.Idx := fun a => match a with
  | ⟨0, _⟩ => ⟨k.val, k.isLt⟩
  | ⟨1, _⟩ => ⟨(i 1).val, (i 1).isLt⟩
/-- The node of an index. -/
abbrev nodeOf (i : SN.Idx) : SC.Idx := fun a => match a with
  | ⟨0, _⟩ => ⟨(i 0).val, (i 0).isLt⟩
/-- The feature of an index. -/
abbrev featOf (i : SN.Idx) : SB.Idx := fun a => match a with
  | ⟨0, _⟩ => ⟨(i 1).val, (i 1).isLt⟩

/-- One linear combine: rows of `M` against columns of `A`, rows of `X` against columns of `B`, plus the bias. -/
def combine (M X : SN.Idx → EReal) (A B : SW.Idx → EReal) (b : SB.Idx → EReal) : SN.Idx → EReal := fun i =>
  (∑ k : Fin 128, M (rowAt i k) * A (colAt i k)) + (∑ k : Fin 128, X (rowAt i k) * B (colAt i k)) + b (featOf i)

/-- The positive part, entry by entry. -/
def relu (Y : SN.Idx → EReal) : SN.Idx → EReal := fun i => max (Y i) 0

/-- The mean: the neighbours' sum over `max(count, 1)` of the node. -/
def meanBy (Ag : SN.Idx → EReal) (cnt : SC.Idx → EReal) : SN.Idx → EReal := fun i =>
  Ideal.div (Ag i) (max (cnt (nodeOf i)) 1)

/-- The same mean written as a product with the reciprocal of `max(count, 1)`. -/
def meanByRecip (Ag : SN.Idx → EReal) (cnt : SC.Idx → EReal) : SN.Idx → EReal := fun i =>
  Ag i * Ideal.div 1 (max (cnt (nodeOf i)) 1)

/-- The hidden layer: combine, then positive part. -/
def hidden (agg : (SN.Idx → EReal) → SN.Idx → EReal) (cnt : SC.Idx → EReal) (x : SN.Idx → EReal)
    (A1 B1 : SW.Idx → EReal) (b1 : SB.Idx → EReal) : SN.Idx → EReal :=
  relu (combine (meanBy (agg x) cnt) x A1 B1 b1)

/-- Two layers: the second runs on the first's positive part, with the same aggregation and the same count. -/
def sage (agg : (SN.Idx → EReal) → SN.Idx → EReal) (cnt : SC.Idx → EReal) (x : SN.Idx → EReal)
    (A1 B1 : SW.Idx → EReal) (b1 : SB.Idx → EReal) (A2 B2 : SW.Idx → EReal) (b2 : SB.Idx → EReal) : SN.Idx → EReal :=
  combine (meanBy (agg (hidden agg cnt x A1 B1 b1)) cnt) (hidden agg cnt x A1 B1 b1) A2 B2 b2

/-- A product with the reciprocal is the quotient, off zero: both are `a · c⁻¹`. -/
theorem mul_recip (a c : EReal) (hc : c ≠ 0) : a * Ideal.div 1 c = Ideal.div a c := by
  rw [Ideal.div, if_neg hc, one_mul, Ideal.div, if_neg hc]

/-- `max(c, 1)` is at least `1`, so it is not `0`. -/
theorem max_one_ne_zero (c : EReal) : max c 1 ≠ 0 :=
  ne_of_gt (lt_of_lt_of_le zero_lt_one (le_max_right c 1))

/-- The two spellings of the mean agree. -/
theorem meanByRecip_eq (Ag : SN.Idx → EReal) (cnt : SC.Idx → EReal) : meanByRecip Ag cnt = meanBy Ag cnt :=
  funext fun i => mul_recip _ _ (max_one_ne_zero _)

/-- The float pattern `0x3F800000` is the number one. -/
theorem ofBits_one_f32 : Ideal.ofBits .f32 0x3F800000#32 = 1 := by
  simp [Ideal.ofBits, Ideal.ieee, -EReal.coe_mul]; norm_num

end Sage

end
-- ==== Proof.KRegion.lean ====
/-
  What each of the two launches leaves in its output array, as ONE function of the arrays it finds at its entry.

  A launch walks 50 grid points. Point `t` reads rows `2000·t … 2000·t + 1999` of the two node arrays (the means and
  the nodes' own rows), the two weight matrices and the bias row whole, and writes rows `2000·t … 2000·t + 1999` of the
  output. Entry `(r, q)` of the block it writes is the body's combine of block row `r` — which is row
  `2000·t + r` of the arrays — so the block is the restriction of the whole-array combine to those rows; the 50
  blocks tile the `100000` rows, so the output array ends holding the whole-array combine.
  Stated for ANY entry contents `V`: the run instantiates it at each launch's entry.
-/
import proofs.«108733_j26817775796491_1_alg».proof.Proof.Gen.KernelIdeal.Frame
import proofs.«108733_j26817775796491_1_alg».proof.Proof.KBody
import proofs.«108733_j26817775796491_1_alg».proof.Proof.Spec
import Idealize.ShloMosaic.Lib.Pipeline.Value

set_option maxRecDepth 16384

noncomputable section

namespace Cert.KernelIdeal.KRegion

open Cert.KernelIdeal Cert.KernelIdeal.Gen Cert.KernelIdeal.KBody
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The bias row `[1, 128]` read as a vector over the features. -/
abbrev rowvec (q : Sage.SB.Idx) : S1x128.Idx := fun a => match a with
  | ⟨0, _⟩ => ⟨0, Nat.one_pos⟩
  | ⟨1, _⟩ => ⟨(q 0).val, (q 0).isLt⟩

/-! ## The first launch -/

/-- The first launch's whole-array result: the positive part of the combine of the arrays it finds. -/
def G0 (c : Dev nD) : Sage.SN.Idx → EReal :=
  Sage.relu (Sage.combine (V c main_v24 : S100000x128.Idx → EReal) (V c main_arg0 : S100000x128.Idx → EReal)
    (V c main_v25 : S128x128.Idx → EReal) (V c main_v26 : S128x128.Idx → EReal)
    (fun q => (V c main_v27 : S1x128.Idx → EReal) (rowvec q)))

/-- Where each window's block sits at point `t`: the node arrays' and the output's at block row `t`, the rest at the origin. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The block of means at point `t` is rows `2000·t …` of the array of means. -/
theorem blk0_0 (c : Dev nD) (t : Fin cfg0.N) (y : S2000x128.Idx) (i : S100000x128.Idx)
    (h0 : (i 0).val = t.val * 2000 + (y 0).val) (h1 : (i 1).val = (y 1).val) :
    (iblk0 V c 0 t : Vec Ideal S2000x128 .f32) y = (V c main_v24 : S100000x128.Idx → EReal) i := by
  obtain ⟨e0, e1, -⟩ := idx0 t
  unfold iblk0
  rw [View.read_apply]
  show V c main_v24 _ = V c main_v24 _
  refine congrArg (V c main_v24) (funext fun a => Fin.ext ?_)
  match a with
  | ⟨0, _⟩ => show win0_0.index t (0 : Fin 2) * 2000 + 1 * (y 0).val = (i 0).val; rw [e0, h0]; omega
  | ⟨1, _⟩ => show win0_0.index t (1 : Fin 2) * 128 + 1 * (y 1).val = (i 1).val; rw [e1, h1]; omega

/-- The block of node rows at point `t` is rows `2000·t …` of the node array. -/
theorem blk0_1 (c : Dev nD) (t : Fin cfg0.N) (y : S2000x128.Idx) (i : S100000x128.Idx)
    (h0 : (i 0).val = t.val * 2000 + (y 0).val) (h1 : (i 1).val = (y 1).val) :
    (iblk0 V c 1 t : Vec Ideal S2000x128 .f32) y = (V c main_arg0 : S100000x128.Idx → EReal) i := by
  obtain ⟨-, -, e0, e1, -⟩ := idx0 t
  unfold iblk0
  rw [View.read_apply]
  show V c main_arg0 _ = V c main_arg0 _
  refine congrArg (V c main_arg0) (funext fun a => Fin.ext ?_)
  match a with
  | ⟨0, _⟩ => show win0_1.index t (0 : Fin 2) * 2000 + 1 * (y 0).val = (i 0).val; rw [e0, h0]; omega
  | ⟨1, _⟩ => show win0_1.index t (1 : Fin 2) * 128 + 1 * (y 1).val = (i 1).val; rw [e1, h1]; omega

/-- The first weight matrix is read whole at every point. -/
theorem blk0_2 (c : Dev nD) (t : Fin cfg0.N) (y : S128x128.Idx) (i : S128x128.Idx)
    (h0 : (i 0).val = (y 0).val) (h1 : (i 1).val = (y 1).val) :
    (iblk0 V c 2 t : Vec Ideal S128x128 .f32) y = (V c main_v25 : S128x128.Idx → EReal) i := by
  obtain ⟨-, -, -, -, e0, e1, -⟩ := idx0 t
  unfold iblk0
  rw [View.read_apply]
  show V c main_v25 _ = V c main_v25 _
  refine congrArg (V c main_v25) (funext fun a => Fin.ext ?_)
  match a with
  | ⟨0, _⟩ => show win0_2.index t (0 : Fin 2) * 128 + 1 * (y 0).val = (i 0).val; rw [e0, h0]; omega
  | ⟨1, _⟩ => show win0_2.index t (1 : Fin 2) * 128 + 1 * (y 1).val = (i 1).val; rw [e1, h1]; omega

/-- The second weight matrix is read whole at every point. -/
theorem blk0_3 (c : Dev nD) (t : Fin cfg0.N) (y : S128x128.Idx) (i : S128x128.Idx)
    (h0 : (i 0).val = (y 0).val) (h1 : (i 1).val = (y 1).val) :
    (iblk0 V c 3 t : Vec Ideal S128x128 .f32) y = (V c main_v26 : S128x128.Idx → EReal) i := by
  obtain ⟨-, -, -, -, -, -, e0, e1, -⟩ := idx0 t
  unfold iblk0
  rw [View.read_apply]
  show V c main_v26 _ = V c main_v26 _
  refine congrArg (V c main_v26) (funext fun a => Fin.ext ?_)
  match a with
  | ⟨0, _⟩ => show win0_3.index t (0 : Fin 2) * 128 + 1 * (y 0).val = (i 0).val; rw [e0, h0]; omega
  | ⟨1, _⟩ => show win0_3.index t (1 : Fin 2) * 128 + 1 * (y 1).val = (i 1).val; rw [e1, h1]; omega

/-- The bias row is read whole at every point. -/
theorem blk0_4 (c : Dev nD) (t : Fin cfg0.N) (y : S1x128.Idx) (i : S1x128.Idx)
    (h0 : (i 0).val = (y 0).val) (h1 : (i 1).val = (y 1).val) :
    (iblk0 V c 4 t : Vec Ideal S1x128 .f32) y = (V c main_v27 : S1x128.Idx → EReal) i := by
  obtain ⟨-, -, -, -, -, -, -, -, e0, e1, -⟩ := idx0 t
  unfold iblk0
  rw [View.read_apply]
  show V c main_v27 _ = V c main_v27 _
  refine congrArg (V c main_v27) (funext fun a => Fin.ext ?_)
  match a with
  | ⟨0, _⟩ => show win0_4.index t (0 : Fin 2) * 1 + 1 * (y 0).val = (i 0).val; rw [e0, h0]; omega
  | ⟨1, _⟩ => show win0_4.index t (1 : Fin 2) * 128 + 1 * (y 1).val = (i 1).val; rw [e1, h1]; omega

/-- WHAT POINT `t` WRITES BACK is block `t` of the whole-array result. -/
theorem flushed0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  obtain ⟨-, -, -, -, -, -, -, -, -, -, e50, e51⟩ := idx0 t
  funext j
  refine (pay0_apply _ _ _ _ _ j).trans ?_
  rw [View.read_apply]
  have hE0 : ((((cfg0.win 5).blk t).view.emb j : S100000x128.Idx) 0).val = t.val * 2000 + (j 0).val := by
    show win0_5.index t (0 : Fin 2) * 2000 + 1 * (j 0).val = _; rw [e50]; omega
  have hE1 : ((((cfg0.win 5).blk t).view.emb j : S100000x128.Idx) 1).val = (j 1).val := by
    show win0_5.index t (1 : Fin 2) * 128 + 1 * (j 1).val = _; rw [e51]; omega
  unfold G0 Sage.relu Sage.combine
  refine congrArg (fun z => max z 0) (congrArg₂ (· + ·) (congrArg₂ (· + ·)
    (Finset.sum_congr rfl fun k _ => congrArg₂ (· * ·) (blk0_0 V c t _ _ hE0 rfl) (blk0_2 V c t _ _ rfl hE1))
    (Finset.sum_congr rfl fun k _ => congrArg₂ (· * ·) (blk0_1 V c t _ _ hE0 rfl) (blk0_3 V c t _ _ rfl hE1))) ?_)
  exact blk0_4 V c t _ _ rfl hE1

/-- Every row of the output array lies in the block of the point `row / 2000`. -/
theorem cover0 (i : S100000x128.Idx) :
    ∃ t : Fin cfg0.N, (cfg0.win 5).flush t = true ∧ i ∈ ((cfg0.win 5).blk t).view.set := by
  have hN : cfg0.N = 50 := N_0
  have h0 : (i 0).val < 100000 := (i 0).isLt
  have h1 : (i 1).val < 128 := (i 1).isLt
  obtain ⟨t, ht⟩ : ∃ t : Fin cfg0.N, t.val = (i 0).val / 2000 := ⟨⟨(i 0).val / 2000, by rw [hN]; omega⟩, rfl⟩
  obtain ⟨-, -, -, -, -, -, -, -, -, -, e50, e51⟩ := idx0 t
  refine ⟨t, flush0_5 t, ?_⟩
  show i ∈ ((View.whole main_v28).slice (win0_5.rect t)).set
  rw [View.set_slice_whole, Rect.mem_set_unit]
  intro a
  match a with
  | ⟨0, _⟩ =>
    show win0_5.index t (0 : Fin 2) * 2000 ≤ (i 0).val ∧ (i 0).val < win0_5.index t (0 : Fin 2) * 2000 + 2000
    rw [e50, ht]; omega
  | ⟨1, _⟩ =>
    show win0_5.index t (1 : Fin 2) * 128 ≤ (i 1).val ∧ (i 1).val < win0_5.index t (1 : Fin 2) * 128 + 128
    rw [e51]; omega

/-- THE FIRST LAUNCH'S OUTPUT ARRAY after its last point. -/
theorem region0 (c : Dev nD) : (dat0 V c).arrAt 5 cfg0.N = G0 V c :=
  (dat0 V c).arrAt_eq_of_cover 5 (G0 V c) (fun t _ => flushed0 V c t) (fun i => cover0 i)

/-! ## The second launch -/

/-- The second launch's whole-array result: the combine of the arrays it finds (no positive part). -/
def G1 (c : Dev nD) : Sage.SN.Idx → EReal :=
  Sage.combine (V c main_v40 : S100000x128.Idx → EReal) (V c main_v28 : S100000x128.Idx → EReal)
    (V c main_v41 : S128x128.Idx → EReal) (V c main_v42 : S128x128.Idx → EReal)
    (fun q => (V c main_v43 : S1x128.Idx → EReal) (rowvec q))

/-- Where each window's block sits at point `t` of the second launch. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The block of second-layer means at point `t` is rows `2000·t …` of their array. -/
theorem blk1_0 (c : Dev nD) (t : Fin cfg1.N) (y : S2000x128.Idx) (i : S100000x128.Idx)
    (h0 : (i 0).val = t.val * 2000 + (y 0).val) (h1 : (i 1).val = (y 1).val) :
    (iblk1 V c 0 t : Vec Ideal S2000x128 .f32) y = (V c main_v40 : S100000x128.Idx → EReal) i := by
  obtain ⟨e0, e1, -⟩ := idx1 t
  unfold iblk1
  rw [View.read_apply]
  show V c main_v40 _ = V c main_v40 _
  refine congrArg (V c main_v40) (funext fun a => Fin.ext ?_)
  match a with
  | ⟨0, _⟩ => show win1_0.index t (0 : Fin 2) * 2000 + 1 * (y 0).val = (i 0).val; rw [e0, h0]; omega
  | ⟨1, _⟩ => show win1_0.index t (1 : Fin 2) * 128 + 1 * (y 1).val = (i 1).val; rw [e1, h1]; omega

/-- The block of hidden rows at point `t` is rows `2000·t …` of the hidden array. -/
theorem blk1_1 (c : Dev nD) (t : Fin cfg1.N) (y : S2000x128.Idx) (i : S100000x128.Idx)
    (h0 : (i 0).val = t.val * 2000 + (y 0).val) (h1 : (i 1).val = (y 1).val) :
    (iblk1 V c 1 t : Vec Ideal S2000x128 .f32) y = (V c main_v28 : S100000x128.Idx → EReal) i := by
  obtain ⟨-, -, e0, e1, -⟩ := idx1 t
  unfold iblk1
  rw [View.read_apply]
  show V c main_v28 _ = V c main_v28 _
  refine congrArg (V c main_v28) (funext fun a => Fin.ext ?_)
  match a with
  | ⟨0, _⟩ => show win1_1.index t (0 : Fin 2) * 2000 + 1 * (y 0).val = (i 0).val; rw [e0, h0]; omega
  | ⟨1, _⟩ => show win1_1.index t (1 : Fin 2) * 128 + 1 * (y 1).val = (i 1).val; rw [e1, h1]; omega

/-- The second layer's first weight matrix is read whole at every point. -/
theorem blk1_2 (c : Dev nD) (t : Fin cfg1.N) (y : S128x128.Idx) (i : S128x128.Idx)
    (h0 : (i 0).val = (y 0).val) (h1 : (i 1).val = (y 1).val) :
    (iblk1 V c 2 t : Vec Ideal S128x128 .f32) y = (V c main_v41 : S128x128.Idx → EReal) i := by
  obtain ⟨-, -, -, -, e0, e1, -⟩ := idx1 t
  unfold iblk1
  rw [View.read_apply]
  show V c main_v41 _ = V c main_v41 _
  refine congrArg (V c main_v41) (funext fun a => Fin.ext ?_)
  match a with
  | ⟨0, _⟩ => show win1_2.index t (0 : Fin 2) * 128 + 1 * (y 0).val = (i 0).val; rw [e0, h0]; omega
  | ⟨1, _⟩ => show win1_2.index t (1 : Fin 2) * 128 + 1 * (y 1).val = (i 1).val; rw [e1, h1]; omega

/-- The second layer's second weight matrix is read whole at every point. -/
theorem blk1_3 (c : Dev nD) (t : Fin cfg1.N) (y : S128x128.Idx) (i : S128x128.Idx)
    (h0 : (i 0).val = (y 0).val) (h1 : (i 1).val = (y 1).val) :
    (iblk1 V c 3 t : Vec Ideal S128x128 .f32) y = (V c main_v42 : S128x128.Idx → EReal) i := by
  obtain ⟨-, -, -, -, -, -, e0, e1, -⟩ := idx1 t
  unfold iblk1
  rw [View.read_apply]
  show V c main_v42 _ = V c main_v42 _
  refine congrArg (V c main_v42) (funext fun a => Fin.ext ?_)
  match a with
  | ⟨0, _⟩ => show win1_3.index t (0 : Fin 2) * 128 + 1 * (y 0).val = (i 0).val; rw [e0, h0]; omega
  | ⟨1, _⟩ => show win1_3.index t (1 : Fin 2) * 128 + 1 * (y 1).val = (i 1).val; rw [e1, h1]; omega

/-- The second layer's bias row is read whole at every point. -/
theorem blk1_4 (c : Dev nD) (t : Fin cfg1.N) (y : S1x128.Idx) (i : S1x128.Idx)
    (h0 : (i 0).val = (y 0).val) (h1 : (i 1).val = (y 1).val) :
    (iblk1 V c 4 t : Vec Ideal S1x128 .f32) y = (V c main_v43 : S1x128.Idx → EReal) i := by
  obtain ⟨-, -, -, -, -, -, -, -, e0, e1, -⟩ := idx1 t
  unfold iblk1
  rw [View.read_apply]
  show V c main_v43 _ = V c main_v43 _
  refine congrArg (V c main_v43) (funext fun a => Fin.ext ?_)
  match a with
  | ⟨0, _⟩ => show win1_4.index t (0 : Fin 2) * 1 + 1 * (y 0).val = (i 0).val; rw [e0, h0]; omega
  | ⟨1, _⟩ => show win1_4.index t (1 : Fin 2) * 128 + 1 * (y 1).val = (i 1).val; rw [e1, h1]; omega

/-- WHAT POINT `t` of the second launch WRITES BACK is block `t` of its whole-array result. -/
theorem flushed1 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  obtain ⟨-, -, -, -, -, -, -, -, -, -, e50, e51⟩ := idx1 t
  funext j
  refine (pay1_apply _ _ _ _ _ j).trans ?_
  rw [View.read_apply]
  have hE0 : ((((cfg1.win 5).blk t).view.emb j : S100000x128.Idx) 0).val = t.val * 2000 + (j 0).val := by
    show win1_5.index t (0 : Fin 2) * 2000 + 1 * (j 0).val = _; rw [e50]; omega
  have hE1 : ((((cfg1.win 5).blk t).view.emb j : S100000x128.Idx) 1).val = (j 1).val := by
    show win1_5.index t (1 : Fin 2) * 128 + 1 * (j 1).val = _; rw [e51]; omega
  unfold G1 Sage.combine
  refine congrArg₂ (· + ·) (congrArg₂ (· + ·)
    (Finset.sum_congr rfl fun k _ => congrArg₂ (· * ·) (blk1_0 V c t _ _ hE0 rfl) (blk1_2 V c t _ _ rfl hE1))
    (Finset.sum_congr rfl fun k _ => congrArg₂ (· * ·) (blk1_1 V c t _ _ hE0 rfl) (blk1_3 V c t _ _ rfl hE1))) ?_
  exact blk1_4 V c t _ _ rfl hE1

/-- Every row of the second output array lies in the block of the point `row / 2000`. -/
theorem cover1 (i : S100000x128.Idx) :
    ∃ t : Fin cfg1.N, (cfg1.win 5).flush t = true ∧ i ∈ ((cfg1.win 5).blk t).view.set := by
  have hN : cfg1.N = 50 := N_1
  have h0 : (i 0).val < 100000 := (i 0).isLt
  have h1 : (i 1).val < 128 := (i 1).isLt
  obtain ⟨t, ht⟩ : ∃ t : Fin cfg1.N, t.val = (i 0).val / 2000 := ⟨⟨(i 0).val / 2000, by rw [hN]; omega⟩, rfl⟩
  obtain ⟨-, -, -, -, -, -, -, -, -, -, e50, e51⟩ := idx1 t
  refine ⟨t, flush1_5 t, ?_⟩
  show i ∈ ((View.whole main_v44).slice (win1_5.rect t)).set
  rw [View.set_slice_whole, Rect.mem_set_unit]
  intro a
  match a with
  | ⟨0, _⟩ =>
    show win1_5.index t (0 : Fin 2) * 2000 ≤ (i 0).val ∧ (i 0).val < win1_5.index t (0 : Fin 2) * 2000 + 2000
    rw [e50, ht]; omega
  | ⟨1, _⟩ =>
    show win1_5.index t (1 : Fin 2) * 128 ≤ (i 1).val ∧ (i 1).val < win1_5.index t (1 : Fin 2) * 128 + 128
    rw [e51]; omega

/-- THE SECOND LAUNCH'S OUTPUT ARRAY after its last point. -/
theorem region1 (c : Dev nD) : (dat1 V c).arrAt 5 cfg1.N = G1 V c :=
  (dat1 V c).arrAt_eq_of_cover 5 (G1 V c) (fun t _ => flushed1 V c t) (fun i => cover1 i)

end Cert.KernelIdeal.KRegion

end
-- ==== Proof.KHost.lean ====
/-
  The host operations around the two launches, read back.

  Before the first launch the program slices the edge list into sources `s` and targets `d`, counts the edges into
  every node (a scatter-add of ones along `d`), forms the reciprocal `1 / max(count, 1)`, gathers the node rows along
  `s`, adds them into their targets, and multiplies by the reciprocal: the array of means. Between the launches it
  does the same gather, add and multiply on the first launch's output. The gather-and-add is carried as ONE function
  `aggK s d` of a node array and the count as `cntK d`: they are never opened.
  What is read index by index is only the multiply by the broadcast reciprocal, which is the mean
  `sum / max(count, 1)` (`Sage.meanByRecip_eq`), and the bias's reshape to a row.
-/
import proofs.«108733_j26817775796491_1_alg».proof.Proof.Gen.KernelIdeal.Frame
import proofs.«108733_j26817775796491_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.SL.Sem Idealize.ShloMosaic.StableHlo

/-! ## The host operations as functions -/

/-- The edges' sources. -/
def srcV (x1 : (⟨S2x1600000, .i32⟩ : BufTy).Contents (Elt Ideal)) : (⟨S1600000, .i32⟩ : BufTy).Contents (Elt Ideal) :=
  shapeCast _ (extractStridedSlice S1x1600000 ![0, 0] x1 slices_S2x1600000_S1x1600000_0_0) shapeCasts_S1x1600000_S1600000

/-- The edges' targets. -/
def dstV (x1 : (⟨S2x1600000, .i32⟩ : BufTy).Contents (Elt Ideal)) : (⟨S1600000, .i32⟩ : BufTy).Contents (Elt Ideal) :=
  shapeCast _ (extractStridedSlice S1x1600000 ![1, 0] x1 slices_S2x1600000_S1x1600000_1_0) shapeCasts_S1x1600000_S1600000

/-- The gather's start indices: a negative source counts from the end. -/
def srcIdx (s : (⟨S1600000, .i32⟩ : BufTy).Contents (Elt Ideal)) : (⟨S1600000x1, .i32⟩ : BufTy).Contents (Elt Ideal) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The neighbours' sum of a node array `y`: rows gathered along the sources, added into the targets. -/
def aggK (s d : (⟨S1600000, .i32⟩ : BufTy).Contents (Elt Ideal)) (y : (⟨S100000x128, .f32⟩ : BufTy).Contents (Elt Ideal)) :
    (⟨S100000x128, .f32⟩ : BufTy).Contents (Elt Ideal) :=
  Host.scatterAdd (F := Ideal) (φ := .f32) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 y (srcIdx s))

/-- The number of edges into each node. -/
def cntK (d : (⟨S1600000, .i32⟩ : BufTy).Contents (Elt Ideal)) : (⟨S100000, .f32⟩ : BufTy).Contents (Elt Ideal) :=
  Host.scatterAdd (F := Ideal) (φ := .f32) scatter_S100000_S1600000x1_S1600000_n_0_0_1
    (broadcastInDim S100000 ![] bcast_S_S100000 (constant (F := Ideal) S_ .f32 0x00000000#32))
    (broadcastInDim S1600000x1 ![0] bcast_S1600000_S1600000x1_0 d)
    (broadcastInDim S1600000 ![] bcast_S_S1600000 (constant (F := Ideal) S_ .f32 0x3F800000#32))

/-- The reciprocal `1 / max(count, 1)`, as a column. -/
def recipK (d : (⟨S1600000, .i32⟩ : BufTy).Contents (Elt Ideal)) : (⟨S100000x1, .f32⟩ : BufTy).Contents (Elt Ideal) :=
  broadcastInDim S100000x1 ![0] bcast_S100000_S100000x1_0
    (Host.divf (F := Ideal) (φ := .f32) (broadcastInDim S100000 ![] bcast_S_S100000 (constant (F := Ideal) S_ .f32 0x3F800000#32))
      (maximumf (F := Ideal) (φ := .f32) (cntK d) (broadcastInDim S100000 ![] bcast_S_S100000 (constant (F := Ideal) S_ .f32 0x3F800000#32))))

/-- The array of means as the program forms it: the neighbours' sum times the reciprocal column laid along the features. -/
def meanK (s d : (⟨S1600000, .i32⟩ : BufTy).Contents (Elt Ideal)) (r : (⟨S100000x1, .f32⟩ : BufTy).Contents (Elt Ideal))
    (y : (⟨S100000x128, .f32⟩ : BufTy).Contents (Elt Ideal)) : (⟨S100000x128, .f32⟩ : BufTy).Contents (Elt Ideal) :=
  mulf (F := Ideal) (φ := .f32) (aggK s d y) (broadcastInDim S100000x128 ![0, 1] bcast_S100000x1_S100000x128_0_1 r)

/-- The vector of ones is `1` at every node. -/
theorem ones_apply (n : S100000.Idx) :
    (broadcastInDim S100000 ![] bcast_S_S100000 (constant (F := Ideal) S_ .f32 0x3F800000#32)) n = (1 : EReal) :=
  (broadcastInDim_apply _ bcast_S_S100000 (constant (F := Ideal) S_ .f32 0x3F800000#32) n (fun a => a.elim0) (fun a => a.elim0)).trans
    Sage.ofBits_one_f32

/-- The host's quotient acts entry by entry. -/
theorem hostDivf_apply (a b : FVec Ideal S100000 .f32) (n : S100000.Idx) :
    Host.divf (F := Ideal) a b n = Ideal.div (a n) (b n) := rfl

/-- A vector laid out as a column, read at a column entry. -/
theorem vec_col_apply {α : Type} (v : S100000.Idx → α) (k : S100000x1.Idx) (n : S100000.Idx) (hk : (n 0).val = (k 0).val) :
    broadcastInDim S100000x1 ![0] bcast_S100000_S100000x1_0 v k = v n :=
  broadcastInDim_apply _ bcast_S100000_S100000x1_0 v k n (fun a => match a with
    | ⟨0, _⟩ => by show (n 0).val = if (100000 : Nat) = 1 then 0 else (k 0).val; rw [if_neg (by decide), hk])

/-- The column entry beside an index of a node array. -/
abbrev colOf (i : S100000x128.Idx) : S100000x1.Idx := fun a => match a with
  | ⟨0, _⟩ => ⟨(i 0).val, (i 0).isLt⟩
  | ⟨1, _⟩ => ⟨0, Nat.one_pos⟩

/-- A column laid along the features, read at an index: the column's entry beside it. -/
theorem col_row_apply {α : Type} (r : S100000x1.Idx → α) (i : S100000x128.Idx) :
    broadcastInDim S100000x128 ![0, 1] bcast_S100000x1_S100000x128_0_1 r i = r (colOf i) :=
  broadcastInDim_apply _ bcast_S100000x1_S100000x128_0_1 r i (colOf i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- The reciprocal column at node `n` is `1 / max(count n, 1)`. -/
theorem recipK_apply (d : (⟨S1600000, .i32⟩ : BufTy).Contents (Elt Ideal)) (k : S100000x1.Idx) (n : S100000.Idx)
    (hk : (n 0).val = (k 0).val) : recipK d k = Ideal.div 1 (max (cntK d n) 1) := by
  unfold recipK
  rw [vec_col_apply _ k n hk, hostDivf_apply, ValueIdx.maximumf_apply, ones_apply]

/-- That array IS the mean `sum / max(count, 1)`. -/
theorem meanK_eq (s d : (⟨S1600000, .i32⟩ : BufTy).Contents (Elt Ideal)) (y : (⟨S100000x128, .f32⟩ : BufTy).Contents (Elt Ideal)) :
    meanK s d (recipK d) y = Sage.meanBy (aggK s d y) (cntK d) := by
  rw [← Sage.meanByRecip_eq]
  funext i
  unfold meanK Sage.meanByRecip
  rw [ValueIdx.mulf_apply, col_row_apply, recipK_apply d (colOf i) (Sage.nodeOf i) rfl]

variable (m : (ℓ : Loc nD τ sig) → Buf (Elt Ideal) ℓ) (ρ : Dev nD → PrngReg)

/-! ## The first launch's entry arrays -/

theorem V1_v24 (c : Dev nD) : V1 m ρ c main_v24
    = meanK (srcV (m ((c : Thread nD τ).loc main_arg1))) (dstV (m ((c : Thread nD τ).loc main_arg1)))
        (recipK (dstV (m ((c : Thread nD τ).loc main_arg1)))) (m ((c : Thread nD τ).loc main_arg0)) := by
  show StableHlo.after hostOps0 (W0 m ρ c) (Proc.devRef .tc main_v24) = _
  after_results_simp <;> rfl

theorem V1_arg0 (c : Dev nD) : V1 m ρ c main_arg0 = m ((c : Thread nD τ).loc main_arg0) := by
  show StableHlo.after hostOps0 (W0 m ρ c) (Proc.devRef .tc main_arg0) = _
  after_results_simp <;> rfl

theorem V1_v25 (c : Dev nD) : V1 m ρ c main_v25
    = transpose S128x128 [1, 0] (m ((c : Thread nD τ).loc main_arg2)) transposes_S128x128_S128x128_1_0 := by
  show StableHlo.after hostOps0 (W0 m ρ c) (Proc.devRef .tc main_v25) = _
  after_results_simp <;> rfl

theorem V1_v26 (c : Dev nD) : V1 m ρ c main_v26
    = transpose S128x128 [1, 0] (m ((c : Thread nD τ).loc main_arg3)) transposes_S128x128_S128x128_1_0 := by
  show StableHlo.after hostOps0 (W0 m ρ c) (Proc.devRef .tc main_v26) = _
  after_results_simp <;> rfl

theorem V1_v27 (c : Dev nD) : V1 m ρ c main_v27
    = shapeCast _ (m ((c : Thread nD τ).loc main_arg4)) shapeCasts_S128_S1x128 := by
  show StableHlo.after hostOps0 (W0 m ρ c) (Proc.devRef .tc main_v27) = _
  after_results_simp <;> rfl

/-- What the second stretch still reads of the first: sources, targets, the reciprocal column, the last three arguments. -/
theorem W1_v1 (c : Dev nD) : W1 m ρ c (Proc.devRef .tc main_v1) = srcV (m ((c : Thread nD τ).loc main_arg1)) := by
  show StableHlo.after hostOps0 (W0 m ρ c) (Proc.devRef .tc main_v1) = _
  after_results_simp <;> rfl

theorem W1_v3 (c : Dev nD) : W1 m ρ c (Proc.devRef .tc main_v3) = dstV (m ((c : Thread nD τ).loc main_arg1)) := by
  show StableHlo.after hostOps0 (W0 m ρ c) (Proc.devRef .tc main_v3) = _
  after_results_simp <;> rfl

theorem W1_v12 (c : Dev nD) : W1 m ρ c (Proc.devRef .tc main_v12) = recipK (dstV (m ((c : Thread nD τ).loc main_arg1))) := by
  show StableHlo.after hostOps0 (W0 m ρ c) (Proc.devRef .tc main_v12) = _
  after_results_simp <;> rfl

theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl

theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl

theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl

/-! ## The second launch's entry arrays, over the contents the first launch leaves -/

theorem V3_v40 (c : Dev nD) : V3 m ρ c main_v40
    = meanK (W2 m ρ c (Proc.devRef .tc main_v1)) (W2 m ρ c (Proc.devRef .tc main_v3)) (W2 m ρ c (Proc.devRef .tc main_v12))
        (W2 m ρ c (Proc.devRef .tc main_v28)) := by
  show StableHlo.after hostOps1 (W2 m ρ c) (Proc.devRef .tc main_v40) = _
  after_results_simp <;> rfl

theorem V3_v28 (c : Dev nD) : V3 m ρ c main_v28 = W2 m ρ c (Proc.devRef .tc main_v28) := by
  show StableHlo.after hostOps1 (W2 m ρ c) (Proc.devRef .tc main_v28) = _
  after_results_simp <;> rfl

theorem V3_v41 (c : Dev nD) : V3 m ρ c main_v41
    = transpose S128x128 [1, 0] (W2 m ρ c (Proc.devRef .tc main_arg5)) transposes_S128x128_S128x128_1_0 := by
  show StableHlo.after hostOps1 (W2 m ρ c) (Proc.devRef .tc main_v41) = _
  after_results_simp <;> rfl

theorem V3_v42 (c : Dev nD) : V3 m ρ c main_v42
    = transpose S128x128 [1, 0] (W2 m ρ c (Proc.devRef .tc main_arg6)) transposes_S128x128_S128x128_1_0 := by
  show StableHlo.after hostOps1 (W2 m ρ c) (Proc.devRef .tc main_v42) = _
  after_results_simp <;> rfl

theorem V3_v43 (c : Dev nD) : V3 m ρ c main_v43
    = shapeCast _ (W2 m ρ c (Proc.devRef .tc main_arg7)) shapeCasts_S128_S1x128 := by
  show StableHlo.after hostOps1 (W2 m ρ c) (Proc.devRef .tc main_v43) = _
  after_results_simp <;> rfl

/-- The first launch writes only its output array: everything else the second stretch reads is as the first stretch left it. -/
theorem W2_v1 (c : Dev nD) : W2 m ρ c (Proc.devRef .tc main_v1) = srcV (m ((c : Thread nD τ).loc main_arg1)) :=
  (W2_of_ne m ρ c main_v1 (by decide)).trans (W1_v1 m ρ c)
theorem W2_v3 (c : Dev nD) : W2 m ρ c (Proc.devRef .tc main_v3) = dstV (m ((c : Thread nD τ).loc main_arg1)) :=
  (W2_of_ne m ρ c main_v3 (by decide)).trans (W1_v3 m ρ c)
theorem W2_v12 (c : Dev nD) : W2 m ρ c (Proc.devRef .tc main_v12) = recipK (dstV (m ((c : Thread nD τ).loc main_arg1))) :=
  (W2_of_ne m ρ c main_v12 (by decide)).trans (W1_v12 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)

end Cert.KernelIdeal.KHost

end
-- ==== Proof.KValue.lean ====
/-
  The kernel program's result array is the two-layer function `Sage.sage` of its arguments.

  The result is the second launch's output array: the combine of the arrays that launch finds. One of them is the
  first launch's output — the positive part of the first combine, the hidden array — and another is the array of
  means the host forms from that hidden array between the launches. The remaining ones are the transposed weights
  and the bias, reshaped to a row. Put together this is `Sage.sage` with the program's own gather-and-add as the
  aggregation and its own count.
-/
import proofs.«108733_j26817775796491_1_alg».proof.Proof.KRegion
import proofs.«108733_j26817775796491_1_alg».proof.Proof.KHost

set_option maxRecDepth 16384

noncomputable section

namespace Cert.KernelIdeal.KValue

open Cert.KernelIdeal Cert.KernelIdeal.Gen Cert.KernelIdeal.KHost Cert.KernelIdeal.KRegion
open Idealize.ShloMosaic Idealize.ShloMosaic.TcCoe Idealize.SL.Sem

/-- A bias reshaped to a row and read back along the features is the bias. -/
theorem bias_row (b : (⟨S128, .f32⟩ : BufTy).Contents (Elt Ideal)) :
    (fun q : Sage.SB.Idx => (shapeCast S1x128 b shapeCasts_S128_S1x128 : S1x128.Idx → EReal) (rowvec q)) = b := by
  funext q
  refine shapeCast_apply b shapeCasts_S128_S1x128 (rowvec q) q ?_
  rw [Shape.rowMajor_val_one, Shape.rowMajor_val_two]
  show (q 0).val = 0 * 128 + (q 0).val
  omega

variable (m : (ℓ : Loc nD τ sig) → Buf (Elt Ideal) ℓ) (ρ : Dev nD → PrngReg)

/-- The first launch leaves the hidden array: the positive part of the first combine. -/
theorem hidden_eq (c : Dev nD) :
    W2 m ρ c (Proc.devRef .tc main_v28)
      = Sage.hidden (aggK (srcV (m ((c : Thread nD τ).loc main_arg1))) (dstV (m ((c : Thread nD τ).loc main_arg1))))
          (cntK (dstV (m ((c : Thread nD τ).loc main_arg1)))) (m ((c : Thread nD τ).loc main_arg0))
          (transpose S128x128 [1, 0] (m ((c : Thread nD τ).loc main_arg2)) transposes_S128x128_S128x128_1_0)
          (transpose S128x128 [1, 0] (m ((c : Thread nD τ).loc main_arg3)) transposes_S128x128_S128x128_1_0)
          (m ((c : Thread nD τ).loc main_arg4)) := by
  refine (W2_arr m ρ c 5).trans ?_
  rw [region0]
  unfold G0 Sage.hidden
  rw [V1_v24, meanK_eq, V1_arg0, V1_v25, V1_v26, V1_v27, bias_row]

/-- The program's result array. -/
theorem result_eq (c : Dev nD) :
    W4 m ρ c (Proc.devRef .tc main_v44)
      = Sage.sage (aggK (srcV (m ((c : Thread nD τ).loc main_arg1))) (dstV (m ((c : Thread nD τ).loc main_arg1))))
          (cntK (dstV (m ((c : Thread nD τ).loc main_arg1)))) (m ((c : Thread nD τ).loc main_arg0))
          (transpose S128x128 [1, 0] (m ((c : Thread nD τ).loc main_arg2)) transposes_S128x128_S128x128_1_0)
          (transpose S128x128 [1, 0] (m ((c : Thread nD τ).loc main_arg3)) transposes_S128x128_S128x128_1_0)
          (m ((c : Thread nD τ).loc main_arg4))
          (transpose S128x128 [1, 0] (m ((c : Thread nD τ).loc main_arg5)) transposes_S128x128_S128x128_1_0)
          (transpose S128x128 [1, 0] (m ((c : Thread nD τ).loc main_arg6)) transposes_S128x128_S128x128_1_0)
          (m ((c : Thread nD τ).loc main_arg7)) := by
  refine (W4_arr m ρ c 5).trans ?_
  rw [region1]
  unfold G1 Sage.sage
  rw [V3_v40, V3_v28, V3_v41, V3_v42, V3_v43, W2_v1, W2_v3, W2_v12, W2_arg5, W2_arg6, W2_arg7, hidden_eq, meanK_eq, bias_row]

end Cert.KernelIdeal.KValue

end
-- ==== Proof.RefValue.lean ====
/-
  The reference, stage by stage, is the two-layer function `Sage.sage`.

  The reference's neighbour sum is a gather of rows followed by a scatter-add, both steered by the edge list only;
  it is carried here as ONE function `aggR x1` of a node array, never opened. Its count is the scatter-add of ones,
  `cntR x1`. Everything else is read index by index: a matrix product is a sum over the contracted index, a
  broadcast reads its operand at the matching coordinates, the quotient and the maximum act entry by entry.
-/
import proofs.«108733_j26817775796491_1_alg».proof.Proof.Gen.ReferenceIdeal.Read
import proofs.«108733_j26817775796491_1_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.SL.Sem

/-- The neighbours' sum of a node array `y`: rows gathered along the edges' sources, added into the edges' targets. -/
def aggR (x1 : (⟨S2x1600000, .i32⟩ : BufTy).Contents (Elt Ideal)) (y : (⟨S100000x128, .f32⟩ : BufTy).Contents (Elt Ideal)) :
    (⟨S100000x128, .f32⟩ : BufTy).Contents (Elt Ideal) :=
  Host.scatterAdd (F := Ideal) (φ := .f32) scatter_S100000x128_S1600000x1_S1600000x128_1_0_0_1 (val_main_v11 (F := Ideal)) (val_main_v12 (F := Ideal) x1)
    (Host.gather gather_S100000x128_S1600000x1_S1600000x128_1_0_n_n_0_1_1128 y (val_main_v9 (F := Ideal) x1))

/-- The number of edges into each node. -/
def cntR (x1 : (⟨S2x1600000, .i32⟩ : BufTy).Contents (Elt Ideal)) : (⟨S100000, .f32⟩ : BufTy).Contents (Elt Ideal) :=
  val_main_v17 (F := Ideal) x1

/-! ### The index functions of the generated stages are the specification's -/

theorem lidx24_eq (i : S100000x128.Idx) (k : Fin 128) : lidx_main_v24 i k = Sage.rowAt i k :=
  funext fun a => Fin.ext (by match a with | ⟨0, _⟩ => rfl | ⟨1, _⟩ => rfl)
theorem ridx24_eq (i : S100000x128.Idx) (k : Fin 128) : ridx_main_v24 i k = Sage.colAt i k :=
  funext fun a => Fin.ext (by match a with | ⟨0, _⟩ => rfl | ⟨1, _⟩ => rfl)
theorem lidx26_eq (i : S100000x128.Idx) (k : Fin 128) : lidx_main_v26 i k = Sage.rowAt i k :=
  funext fun a => Fin.ext (by match a with | ⟨0, _⟩ => rfl | ⟨1, _⟩ => rfl)
theorem ridx26_eq (i : S100000x128.Idx) (k : Fin 128) : ridx_main_v26 i k = Sage.colAt i k :=
  funext fun a => Fin.ext (by match a with | ⟨0, _⟩ => rfl | ⟨1, _⟩ => rfl)
theorem lidx52_eq (i : S100000x128.Idx) (k : Fin 128) : lidx_main_v52 i k = Sage.rowAt i k :=
  funext fun a => Fin.ext (by match a with | ⟨0, _⟩ => rfl | ⟨1, _⟩ => rfl)
theorem ridx52_eq (i : S100000x128.Idx) (k : Fin 128) : ridx_main_v52 i k = Sage.colAt i k :=
  funext fun a => Fin.ext (by match a with | ⟨0, _⟩ => rfl | ⟨1, _⟩ => rfl)
theorem lidx54_eq (i : S100000x128.Idx) (k : Fin 128) : lidx_main_v54 i k = Sage.rowAt i k :=
  funext fun a => Fin.ext (by match a with | ⟨0, _⟩ => rfl | ⟨1, _⟩ => rfl)
theorem ridx54_eq (i : S100000x128.Idx) (k : Fin 128) : ridx_main_v54 i k = Sage.colAt i k :=
  funext fun a => Fin.ext (by match a with | ⟨0, _⟩ => rfl | ⟨1, _⟩ => rfl)
/-- A count is broadcast along the features: it is read at the node. -/
theorem node21_eq (j : S100000x128.Idx) : idx_main_v20 (idx_main_v21 j) = Sage.nodeOf j :=
  funext fun a => Fin.ext (by match a with | ⟨0, _⟩ => rfl)
theorem node49_eq (j : S100000x128.Idx) : idx_main_v48 (idx_main_v49 j) = Sage.nodeOf j :=
  funext fun a => Fin.ext (by match a with | ⟨0, _⟩ => rfl)
/-- A bias is broadcast along the nodes: it is read at the feature. -/
theorem feat29_eq (i : S100000x128.Idx) : idx_main_v28 (idx_main_v29 i) = Sage.featOf i :=
  funext fun a => Fin.ext (by match a with | ⟨0, _⟩ => rfl)
theorem feat57_eq (i : S100000x128.Idx) : idx_main_v56 (idx_main_v57 i) = Sage.featOf i :=
  funext fun a => Fin.ext (by match a with | ⟨0, _⟩ => rfl)

/-! ### The neighbours' sum and the count, in both layers -/

/-- The first layer's scatter-add of gathered rows is the neighbours' sum of the input. -/
theorem v13_eq (x0 : (⟨S100000x128, .f32⟩ : BufTy).Contents (Elt Ideal)) (x1 : (⟨S2x1600000, .i32⟩ : BufTy).Contents (Elt Ideal)) :
    val_main_v13 (F := Ideal) x0 x1 = aggR x1 x0 := rfl

/-- The second layer prints the same zero array, the same targets, the same sources and the same count again. -/
theorem v39_eq : val_main_v39 (F := Ideal) = val_main_v11 (F := Ideal) := rfl
theorem v40_eq (x1 : (⟨S2x1600000, .i32⟩ : BufTy).Contents (Elt Ideal)) : val_main_v40 (F := Ideal) x1 = val_main_v12 (F := Ideal) x1 := rfl
theorem v32_eq : val_main_v32 (F := Ideal) = val_main_v4 (F := Ideal) := rfl
theorem v34_eq : val_main_v34 (F := Ideal) = val_main_v6 (F := Ideal) := rfl
theorem v36_eq (x1 : (⟨S2x1600000, .i32⟩ : BufTy).Contents (Elt Ideal)) : val_main_v36 (F := Ideal) x1 = val_main_v8 (F := Ideal) x1 := rfl
theorem v37_eq (x1 : (⟨S2x1600000, .i32⟩ : BufTy).Contents (Elt Ideal)) : val_main_v37 (F := Ideal) x1 = val_main_v9 (F := Ideal) x1 := rfl
theorem v45_eq (x1 : (⟨S2x1600000, .i32⟩ : BufTy).Contents (Elt Ideal)) : val_main_v45 (F := Ideal) x1 = val_main_v17 (F := Ideal) x1 := rfl

/-- The second layer's scatter-add is the neighbours' sum of the first layer's output. -/
theorem v41_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    val_main_v41 (F := Ideal) x0 x1 x2 x3 x4 = aggR x1 (val_main_v31 (F := Ideal) x0 x1 x2 x3 x4) := by
  unfold val_main_v41 val_main_v38 aggR
  rw [v39_eq, v40_eq, v37_eq]

/-! ### The mean -/

/-- The first layer's quotient is the mean of the input's neighbour sum. -/
theorem v22_eq (x0 : (⟨S100000x128, .f32⟩ : BufTy).Contents (Elt Ideal)) (x1 : (⟨S2x1600000, .i32⟩ : BufTy).Contents (Elt Ideal))
    (j : S100000x128.Idx) :
    val_main_v22 (F := Ideal) x0 x1 j = Sage.meanBy (aggR x1 x0) (cntR x1) j := by
  rw [val_main_v22_apply, val_main_v21_apply, val_main_v20_apply, val_main_v19_apply, val_main_v18_apply,
    val_main_cst_3_apply, v13_eq, node21_eq]
  simp only [Ideal.hostDivf_def, Ideal.maximumf_def, Ideal.ofBits_def, Sage.ofBits_one_f32]
  rfl

/-- The second layer's quotient is the mean of the neighbour sum of the first layer's output. -/
theorem v50_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (j : S100000x128.Idx) :
    val_main_v50 (F := Ideal) x0 x1 x2 x3 x4 j
      = Sage.meanBy (aggR x1 (val_main_v31 (F := Ideal) x0 x1 x2 x3 x4)) (cntR x1) j := by
  rw [val_main_v50_apply, val_main_v49_apply, val_main_v48_apply, val_main_v47_apply, val_main_v46_apply,
    val_main_cst_9_apply, v41_eq, v45_eq, node49_eq]
  simp only [Ideal.hostDivf_def, Ideal.maximumf_def, Ideal.ofBits_def, Sage.ofBits_one_f32]
  rfl

/-- The first layer's positive part. -/
theorem hidden_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    val_main_v31 (F := Ideal) x0 x1 x2 x3 x4
      = Sage.hidden (aggR x1) (cntR x1) x0 (val_main_v23 (F := Ideal) x2) (val_main_v25 (F := Ideal) x3) x4 := by
  funext i
  rw [val_main_v31_apply, val_main_v30_apply, val_main_v27_apply, val_main_v24_apply, val_main_v26_apply,
    val_main_v29_apply, val_main_v28_apply, val_main_call0_v0_apply, val_main_call0_cst_apply, feat29_eq]
  simp only [Ideal.maximumf_def, Ideal.addf_def, Ideal.ofBits_def, Ideal.ofBits_zero_f32,
    v22_eq, lidx24_eq, ridx24_eq, lidx26_eq, ridx26_eq]
  rfl

/-- The whole reference. -/
theorem ref_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    val_main_v58 (F := Ideal) x0 x1 x2 x3 x4 x5 x6 x7
      = Sage.sage (aggR x1) (cntR x1) x0 (val_main_v23 (F := Ideal) x2) (val_main_v25 (F := Ideal) x3) x4
          (val_main_v51 (F := Ideal) x5) (val_main_v53 (F := Ideal) x6) x7 := by
  funext i
  rw [val_main_v58_apply, val_main_v55_apply, val_main_v52_apply, val_main_v54_apply, val_main_v57_apply,
    val_main_v56_apply, feat57_eq]
  simp only [Ideal.addf_def, v50_eq, lidx52_eq, ridx52_eq, lidx54_eq, ridx54_eq, hidden_eq]
  rfl

end Cert.ReferenceIdeal.RefValue

end
-- ==== Proof.Bridge.lean ====
/-
  The two programs' opaque pieces are the same functions.

  Both programs slice the edge list the same way, build the same start indices, gather with the same dimension
  numbers and scatter-add into the same zero array; they count with the same scatter-add of ones; and they transpose
  the weights the same way. Each program spells these over its own copy of the shapes and dimension records, so the
  equalities below hold by unfolding the names on both sides; nothing about what a gather or a scatter-add computes
  is used.
-/
import proofs.«108733_j26817775796491_1_alg».proof.Proof.RefValue
import proofs.«108733_j26817775796491_1_alg».proof.Proof.KHost

noncomputable section

namespace Cert.Proof.Bridge

open Cert.KernelIdeal Cert.KernelIdeal.Gen Idealize.ShloMosaic Idealize.ShloMosaic.TcCoe Idealize.SL.Sem

/-- The sources. -/
theorem src_eq (x1 : (⟨S2x1600000, .i32⟩ : BufTy).Contents (Elt Ideal)) :
    Cert.ReferenceIdeal.Read.val_main_v1 (F := Ideal) x1 = Cert.KernelIdeal.KHost.srcV x1 := rfl

/-- The targets. -/
theorem dst_eq (x1 : (⟨S2x1600000, .i32⟩ : BufTy).Contents (Elt Ideal)) :
    Cert.ReferenceIdeal.Read.val_main_v3 (F := Ideal) x1 = Cert.KernelIdeal.KHost.dstV x1 := rfl

/-- The gather's start indices. -/
theorem idx_eq (x1 : (⟨S2x1600000, .i32⟩ : BufTy).Contents (Elt Ideal)) :
    Cert.ReferenceIdeal.Read.val_main_v9 (F := Ideal) x1 = Cert.KernelIdeal.KHost.srcIdx (Cert.KernelIdeal.KHost.srcV x1) := rfl

/-- The scatter's target indices. -/
theorem tgt_eq (x1 : (⟨S2x1600000, .i32⟩ : BufTy).Contents (Elt Ideal)) :
    Cert.ReferenceIdeal.Read.val_main_v12 (F := Ideal) x1
      = broadcastInDim S1600000x1 ![0] bcast_S1600000_S1600000x1_0 (Cert.KernelIdeal.KHost.dstV x1) := rfl

/-- The neighbours' sum. -/
theorem agg_eq (x1 : (⟨S2x1600000, .i32⟩ : BufTy).Contents (Elt Ideal)) :
    Cert.ReferenceIdeal.RefValue.aggR x1
      = Cert.KernelIdeal.KHost.aggK (Cert.KernelIdeal.KHost.srcV x1) (Cert.KernelIdeal.KHost.dstV x1) := by
  funext y
  unfold Cert.ReferenceIdeal.RefValue.aggR Cert.KernelIdeal.KHost.aggK
  rw [idx_eq, tgt_eq]
  rfl

/-- The count. -/
theorem cnt_eq (x1 : (⟨S2x1600000, .i32⟩ : BufTy).Contents (Elt Ideal)) :
    Cert.ReferenceIdeal.RefValue.cntR x1 = Cert.KernelIdeal.KHost.cntK (Cert.KernelIdeal.KHost.dstV x1) := by
  unfold Cert.ReferenceIdeal.RefValue.cntR Cert.KernelIdeal.KHost.cntK Cert.ReferenceIdeal.Read.val_main_v17
  rw [show Cert.ReferenceIdeal.Read.val_main_v16 (F := Ideal) x1
      = broadcastInDim S1600000x1 ![0] bcast_S1600000_S1600000x1_0 (Cert.KernelIdeal.KHost.dstV x1) from rfl]
  rfl

/-- The two-layer function over the reference's pieces is the one over the kernel program's. -/
theorem sage_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    Sage.sage (Cert.ReferenceIdeal.RefValue.aggR x1) (Cert.ReferenceIdeal.RefValue.cntR x1) x0
        (Cert.ReferenceIdeal.Read.val_main_v23 (F := Ideal) x2) (Cert.ReferenceIdeal.Read.val_main_v25 (F := Ideal) x3) x4
        (Cert.ReferenceIdeal.Read.val_main_v51 (F := Ideal) x5) (Cert.ReferenceIdeal.Read.val_main_v53 (F := Ideal) x6) x7
      = Sage.sage (Cert.KernelIdeal.KHost.aggK (Cert.KernelIdeal.KHost.srcV x1) (Cert.KernelIdeal.KHost.dstV x1))
          (Cert.KernelIdeal.KHost.cntK (Cert.KernelIdeal.KHost.dstV x1)) x0
          (transpose S128x128 [1, 0] x2 transposes_S128x128_S128x128_1_0)
          (transpose S128x128 [1, 0] x3 transposes_S128x128_S128x128_1_0) x4
          (transpose S128x128 [1, 0] x5 transposes_S128x128_S128x128_1_0)
          (transpose S128x128 [1, 0] x6 transposes_S128x128_S128x128_1_0) x7 := by
  rw [agg_eq, cnt_eq]
  rfl

end Cert.Proof.Bridge

end
-- ==== Proof.lean ====
/-
  The certificate: the tiled two-layer neighbour-mean network against its plain reference, over the extended reals.

  Both programs compute, for every node, the mean of its in-neighbours' rows (their sum over `max(count, 1)`),
  combine it linearly with the node's own row and a bias, take the positive part, and do the same once more on the
  result. The reference divides the neighbours' sum by `max(count, 1)` and multiplies whole matrices; the kernel
  program multiplies the sum by the reciprocal `1 / max(count, 1)` on the host and multiplies block by block, 2000
  rows at a time, in two launches. On the extended reals the product with the reciprocal is the quotient because
  `max(count, 1)` is never zero (Proof/Spec.lean), and a block of rows of a matrix product is the product of the
  block of rows (Proof/KRegion.lean); the gather and the scatter-add that form the neighbours' sum are the same
  operations in both programs and are never opened (Proof/Bridge.lean).
  The three frames: the two kernel programs' are the generated ones; the reference's is its generated run with the
  result dropped. Nothing was rewritten when the kernel program was idealized, so that claim is trivial.
-/
import proofs.«108733_j26817775796491_1_alg».proof.Defs
import proofs.«108733_j26817775796491_1_alg».proof.Proof.Gen.Kernel
import proofs.«108733_j26817775796491_1_alg».proof.Proof.Gen.Kernel.Skeleton
import proofs.«108733_j26817775796491_1_alg».proof.Proof.Gen.Kernel.Launch
import proofs.«108733_j26817775796491_1_alg».proof.Proof.Gen.Kernel.Points
import proofs.«108733_j26817775796491_1_alg».proof.Proof.Gen.Kernel.Frame
import proofs.«108733_j26817775796491_1_alg».proof.Proof.Gen.KernelIdeal
import proofs.«108733_j26817775796491_1_alg».proof.Proof.Gen.KernelIdeal.Skeleton
import proofs.«108733_j26817775796491_1_alg».proof.Proof.Gen.KernelIdeal.Launch
import proofs.«108733_j26817775796491_1_alg».proof.Proof.Gen.KernelIdeal.Points
import proofs.«108733_j26817775796491_1_alg».proof.Proof.Gen.KernelIdeal.Frame
import proofs.«108733_j26817775796491_1_alg».proof.Proof.Gen.ReferenceIdeal
import proofs.«108733_j26817775796491_1_alg».proof.Proof.Gen.ReferenceIdeal.Run
import proofs.«108733_j26817775796491_1_alg».proof.Proof.Gen.ReferenceIdeal.Read
import proofs.«108733_j26817775796491_1_alg».proof.Proof.Gen.Pre_finite_inputs
import proofs.«108733_j26817775796491_1_alg».proof.Proof.KRun
import proofs.«108733_j26817775796491_1_alg».proof.Proof.KValue
import proofs.«108733_j26817775796491_1_alg».proof.Proof.RefValue
import proofs.«108733_j26817775796491_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the two-layer function of the arguments in their result arrays. -/
theorem algebraic : Cert.algebraic_KernelIdeal_ReferenceIdeal := by
  intro m ρ m' ρ' _ hagree
  refine ⟨fun c => Cert.KernelIdeal.Gen.W4 m ρ c (Proc.devRef .tc Cert.KernelIdeal.main_v44),
    Cert.KernelIdeal.KRun.run_named m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v58_eq, e0, e1, e2, e3, e4, e5, e6, e7, Cert.ReferenceIdeal.RefValue.ref_eq]
  exact (Cert.Proof.Bridge.sage_eq _ _ _ _ _ _ _ _).trans (Cert.KernelIdeal.KValue.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
